-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x257 : Shape := ⟨2, ![16384, 257]⟩
abbrev S_ : Shape := ⟨0, ![]⟩

class Facts : Prop where
  bcast_S_S16384x257 : S_.BroadcastsInDim S16384x257 (![] : Fin 0 → Fin S16384x257.rank)
  reducesTo_S16384x257_S_d0_1 : S16384x257.ReducesTo [0, 1] S_
  h_S_ : 0 < S_.numel

variable [Facts]

def fn {F : FTy → Type} [FloatOps F] (main_arg0 : FVec F S16384x257 .f32) (main_arg1 : FVec F S16384x257 .f32) : IVec S_ 1 :=
  let main_v0 : FVec F S16384x257 .f32 := Host.absf main_arg0
  let main_cst : FVec F S_ .f32 := constant S_ .f32 0x7F800000#32
  let main_v1 : FVec F S16384x257 .f32 := broadcastInDim S16384x257 ![] bcast_S_S16384x257 main_cst
  let main_v2 : IVec S16384x257 1 := cmpf .olt main_v0 main_v1
  let main_c : IVec S_ 1 := constantI S_ 1 1#1
  let main_v3 : IVec S_ 1 := (fun x v => Host.reduce IntOp.andi x v reducesTo_S16384x257_S_d0_1 h_S_) main_v2 main_c
  let main_v4 : FVec F S16384x257 .f32 := Host.absf main_arg1
  let main_cst_0 : FVec F S_ .f32 := constant S_ .f32 0x7F800000#32
  let main_v5 : FVec F S16384x257 .f32 := broadcastInDim S16384x257 ![] bcast_S_S16384x257 main_cst_0
  let main_v6 : IVec S16384x257 1 := cmpf .olt main_v4 main_v5
  let main_c_1 : IVec S_ 1 := constantI S_ 1 1#1
  let main_v7 : IVec S_ 1 := (fun x v => Host.reduce IntOp.andi x v reducesTo_S16384x257_S_d0_1 h_S_) main_v6 main_c_1
  let main_v8 : IVec S_ 1 := andi main_v3 main_v7
  main_v8
-- ==== Kernel.lean ====
abbrev S16384x257 : Shape := ⟨2, ![16384, 257]⟩
abbrev S16320x257x64 : Shape := ⟨3, ![16320, 257, 64]⟩
abbrev S48x257x64 : Shape := ⟨3, ![48, 257, 64]⟩
abbrev S72x257 : Shape := ⟨2, ![72, 257]⟩
abbrev S257x72 : Shape := ⟨2, ![257, 72]⟩
abbrev S257x64 : Shape := ⟨2, ![257, 64]⟩
abbrev S1x257x64 : Shape := ⟨3, ![1, 257, 64]⟩
abbrev S8x257x64 : Shape := ⟨3, ![8, 257, 64]⟩
abbrev S16320x257 : Shape := ⟨2, ![16320, 257]⟩

abbrev nBuf : Space → Nat
  | .hbm => 4
  | .vmem => 3
  | .smem => 0
  | _ => 0

abbrev bufTy : (tb : Table) → Fin (tcTables nBuf tb) → BufTy
  | .hbm, ⟨0, _⟩ => ⟨S16384x257, .f32⟩
  | .hbm, ⟨1, _⟩ => ⟨S16384x257, .f32⟩
  | .hbm, ⟨2, _⟩ => ⟨S16320x257x64, .f32⟩
  | .hbm, ⟨3, _⟩ => ⟨S16320x257, .f32⟩
  | .local _ .vmem, ⟨0, _⟩ => ⟨S16384x257, .f32⟩
  | .local _ .vmem, ⟨1, _⟩ => ⟨S48x257x64, .f32⟩
  | .local _ .vmem, ⟨2, _⟩ => ⟨S48x257x64, .f32⟩
  | _, _ => ⟨S16384x257, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![340], ![false]⟩

def k0_mult1 (i : grid0.Coords) : BitVec 32 :=
  let arg0 : BitVec 32 := BitVec.ofNat 32 (i 0).val
  let c48_i32 : BitVec 32 := 48#32
  let v0 : BitVec 32 := Scalar.muli arg0 c48_i32
  v0
@[reducible] def k0_t1_loop : Scf.Loop 32 :=
  let c0_i32 : BitVec 32 := 0#32
  let c6_i32 : BitVec 32 := 6#32
  let v2 : BitVec 32 := Scalar.addi c0_i32 c6_i32
  let c1_i32 : BitVec 32 := 1#32
  ⟨c0_i32, v2, c1_i32⟩
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c8_i32 : BitVec 32 := 8#32
  let v3 : BitVec 32 := Scalar.muli arg3 c8_i32
  v3
def k0_mult3 (i : grid0.Coords) (k0_t1 : Fin k0_t1_loop.trips) : BitVec 32 :=
  let arg0 : BitVec 32 := BitVec.ofNat 32 (i 0).val
  let c48_i32 : BitVec 32 := 48#32
  let v0 : BitVec 32 := Scalar.muli arg0 c48_i32
  let v1 : BitVec 32 := v0
  let c0_i32 : BitVec 32 := 0#32
  let c1_i32 : BitVec 32 := 1#32
  let arg3 : BitVec 32 := Scf.iv c0_i32 c1_i32 k0_t1
  let c8_i32 : BitVec 32 := 8#32
  let v3 : BitVec 32 := Scalar.muli arg3 c8_i32
  let v4 : BitVec 32 := v3
  let v5 : BitVec 32 := Scalar.addi v1 v4
  v5
def k0_off1 (i : grid0.Coords) (k0_t1 : Fin k0_t1_loop.trips) : Fin 2 → Nat :=
  let arg0 : BitVec 32 := BitVec.ofNat 32 (i 0).val
  let c48_i32 : BitVec 32 := 48#32
  let v0 : BitVec 32 := Scalar.muli arg0 c48_i32
  let v1 : BitVec 32 := v0
  let c0_i32 : BitVec 32 := 0#32
  let c1_i32 : BitVec 32 := 1#32
  let arg3 : BitVec 32 := Scf.iv c0_i32 c1_i32 k0_t1
  let c8_i32 : BitVec 32 := 8#32
  let v3 : BitVec 32 := Scalar.muli arg3 c8_i32
  let v4 : BitVec 32 := v3
  let v5 : BitVec 32 := Scalar.addi v1 v4
  let v6 : BitVec 32 := v5
  let v7 : Index := Scalar.indexCast v6
  let c0 : Index := 0#32
  ![v7.toNat, 0]
def k0_off2 (k0_t1 : Fin k0_t1_loop.trips) : Fin 3 → Nat :=
  let c0_i32 : BitVec 32 := 0#32
  let c1_i32 : BitVec 32 := 1#32
  let arg3 : BitVec 32 := Scf.iv c0_i32 c1_i32 k0_t1
  let c8_i32 : BitVec 32 := 8#32
  let v3 : BitVec 32 := Scalar.muli arg3 c8_i32
  let v4 : BitVec 32 := v3
  let v27 : Index := Scalar.indexCast v4
  let c0_1 : Index := 0#32
  let c0_2 : Index := 0#32
  ![v27.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16384x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S48x257x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S72x257 : 0 < S72x257.numel
  transposes_S72x257_p1_0_S257x72 : S72x257.Transposes [1, 0] S257x72
  slices_S257x72_o0_0_S257x64 : S257x72.Slices ![0, 0] S257x64
  slices_S257x72_o0_1_S257x64 : S257x72.Slices ![0, 1] S257x64
  slices_S257x72_o0_2_S257x64 : S257x72.Slices ![0, 2] S257x64
  slices_S257x72_o0_3_S257x64 : S257x72.Slices ![0, 3] S257x64
  slices_S257x72_o0_4_S257x64 : S257x72.Slices ![0, 4] S257x64
  slices_S257x72_o0_5_S257x64 : S257x72.Slices ![0, 5] S257x64
  slices_S257x72_o0_6_S257x64 : S257x72.Slices ![0, 6] S257x64
  slices_S257x72_o0_7_S257x64 : S257x72.Slices ![0, 7] S257x64
  shapeCasts_S257x64_S1x257x64 : S257x64.ShapeCasts S1x257x64
  concatenates_S1x257x64_S1x257x64_S1x257x64_S1x257x64_S1x257x64_S1x257x64_S1x257x64_S1x257x64_S8x257x64_d0 : Shape.Concatenates [S1x257x64, S1x257x64, S1x257x64, S1x257x64, S1x257x64, S1x257x64, S1x257x64, S1x257x64] S8x257x64 0
  h_S8x257x64 : 0 < S8x257x64.numel
  slices_S16384x257_S16320x257_64_0 : S16384x257.Slices ![64, 0] S16320x257
  hrank0 : 0 < grid0.rank
  k0_mult1_dvd : ∀ i : grid0.Coords, 8 ∣ (k0_mult1 i).toNat
  k0_t1_ok : k0_t1_loop.OK
  k0_mult2_dvd : ∀ k0_t1 : Fin k0_t1_loop.trips, 8 ∣ (k0_mult2 k0_t1).toNat
  k0_mult3_dvd : ∀ (i : grid0.Coords) (k0_t1 : Fin k0_t1_loop.trips), 8 ∣ (k0_mult3 i k0_t1).toNat
  k0_off1_inb : ∀ (i : grid0.Coords) (k0_t1 : Fin k0_t1_loop.trips), ∀ a, (k0_off1 i k0_t1) a + S72x257.size a ≤ S16384x257.size a
  k0_off2_inb : ∀ k0_t1 : Fin k0_t1_loop.trips, ∀ a, (k0_off2 k0_t1) a + S8x257x64.size a ≤ S48x257x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x257.size a ≤ S16384x257.size a
  hwx0_0 : ∀ i : grid0.Coords, EltTy.bits .f32 = 32 ∨ (Rect.block (s := S16384x257) S16384x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S48x257x64.size a ≤ S16320x257x64.size a
  hwx0_1 : ∀ i : grid0.Coords, EltTy.bits .f32 = 32 ∨ (Rect.block (s := S16320x257x64) S48x257x64.size (cc0_transform_1 i) (hinb0_1 i)).WholeWords (EltTy.packing .f32)

variable [Facts₀]

abbrev win0_0 : Pipeline.Window sig grid0 :=
  Pipeline.Window.ofSpec (Memref.whole main_arg0) S16384x257.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S48x257x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x257 : Shape := ⟨2, ![16384, 257]⟩
abbrev S16320 : Shape := ⟨1, ![16320]⟩
abbrev S16320x1 : Shape := ⟨2, ![16320, 1]⟩
abbrev S64 : Shape := ⟨1, ![64]⟩
abbrev S1x64 : Shape := ⟨2, ![1, 64]⟩
abbrev S16320x64 : Shape := ⟨2, ![16320, 64]⟩
abbrev S_ : Shape := ⟨0, ![]⟩
abbrev S16320x64x1 : Shape := ⟨3, ![16320, 64, 1]⟩
abbrev S16320x64x257 : Shape := ⟨3, ![16320, 64, 257]⟩
abbrev S16320x257x64 : Shape := ⟨3, ![16320, 257, 64]⟩
abbrev S16320x257 : Shape := ⟨2, ![16320, 257]⟩

abbrev nBuf : Space → Nat
  | .hbm => 20
  | .vmem => 0
  | .smem => 0
  | _ => 0

abbrev bufTy : (tb : Table) → Fin (tcTables nBuf tb) → BufTy
  | .hbm, ⟨0, _⟩ => ⟨S16384x257, .f32⟩
  | .hbm, ⟨1, _⟩ => ⟨S16384x257, .f32⟩
  | .hbm, ⟨2, _⟩ => ⟨S16320, .i32⟩
  | .hbm, ⟨3, _⟩ => ⟨S16320x1, .i32⟩
  | .hbm, ⟨4, _⟩ => ⟨S64, .i32⟩
  | .hbm, ⟨5, _⟩ => ⟨S1x64, .i32⟩
  | .hbm, ⟨6, _⟩ => ⟨S16320x64, .i32⟩
  | .hbm, ⟨7, _⟩ => ⟨S16320x64, .i32⟩
  | .hbm, ⟨8, _⟩ => ⟨S16320x64, .i32⟩
  | .hbm, ⟨9, _⟩ => ⟨S_, .i32⟩
  | .hbm, ⟨10, _⟩ => ⟨S16320x64, .i32⟩
  | .hbm, ⟨11, _⟩ => ⟨S16320x64, .i1⟩
  | .hbm, ⟨12, _⟩ => ⟨S_, .i32⟩
  | .hbm, ⟨13, _⟩ => ⟨S16320x64, .i32⟩
  | .hbm, ⟨14, _⟩ => ⟨S16320x64, .i32⟩
  | .hbm, ⟨15, _⟩ => ⟨S16320x64, .i32⟩
  | .hbm, ⟨16, _⟩ => ⟨S16320x64x1, .i32⟩
  | .hbm, ⟨17, _⟩ => ⟨S16320x64x257, .f32⟩
  | .hbm, ⟨18, _⟩ => ⟨S16320x257x64, .f32⟩
  | .hbm, ⟨19, _⟩ => ⟨S16320x257, .f32⟩
  | _, _ => ⟨S16384x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  bcast_S16320_S16320x1_0 : S16320.BroadcastsInDim S16320x1 (![0] : Fin 1 → Fin S16320x1.rank)
  bcast_S64_S1x64_1 : S64.BroadcastsInDim S1x64 (![1] : Fin 1 → Fin S1x64.rank)
  bcast_S16320x1_S16320x64_0_1 : S16320x1.BroadcastsInDim S16320x64 (![0, 1] : Fin 2 → Fin S16320x64.rank)
  bcast_S1x64_S16320x64_0_1 : S1x64.BroadcastsInDim S16320x64 (![0, 1] : Fin 2 → Fin S16320x64.rank)
  bcast_S_S16320x64 : S_.BroadcastsInDim S16320x64 (![] : Fin 0 → Fin S16320x64.rank)
  bcast_S16320x64_S16320x64x1_0_1 : S16320x64.BroadcastsInDim S16320x64x1 (![0, 1] : Fin 2 → Fin S16320x64x1.rank)
  transposes_S16320x64x257_S16320x257x64_0_2_1 : S16320x64x257.Transposes [0, 2, 1] S16320x257x64
  slices_S16384x257_S16320x257_64_0 : S16384x257.Slices ![64, 0] S16320x257
  gather_S16384x257_S16320x64x1_S16320x64x257_2_0_n_n_0_2_1257_wf : GatherDims.WF S16384x257 S16320x64x1 S16320x64x257 [2] [0] [] [0] [] 2 ![1, 257]

variable [Facts₀]

def gather_S16384x257_S16320x64x1_S16320x64x257_2_0_n_n_0_2_1257 : GatherDims S16384x257 S16320x64x1 S16320x64x257 where
  offsetDims := [2]
  collapsedSliceDims := [0]
  operandBatchingDims := []
  startIndicesBatchingDims := []
  startIndexMap := [0]
  indexVectorDim := 2
  sliceSizes := ![1, 257]
  wf := gather_S16384x257_S16320x64x1_S16320x64x257_2_0_n_n_0_2_1257_wf

class Facts : Prop extends Facts₀ where

variable [Facts]
-- ==== Proof.Payload.lean ====
/-
  The kernel's stored value, entry by entry.

  The body reads a slab of 72 rows of 257 entries, transposes it, and stacks eight column windows of width 64 of the
  transposed slab, window `s` starting at column `s`. So the stacked value holds at `(s, f, j)` the transposed slab's
  entry `(f, s + j)`, which is the slab's entry `(s + j, f)`: the eight windows are eight consecutive sliding windows
  over the slab's rows, each transposed.
-/
import proofs.«402857_j23106924053186_3_alg».proof.Proof.Gen.KernelIdeal.Skeleton
import Idealize.ShloMosaic.Lib.ValueIdx
import Idealize.ShloMosaic.Lib.Pipeline.Value
import Idealize.ShloMosaic.Lib.ValueLayout

noncomputable section

namespace Cert.KernelIdeal.BlockValue

open Idealize.ShloMosaic Idealize.ShloMosaic.ValueIdx Cert.KernelIdeal Cert.KernelIdeal.Gen

variable {F : FTy → Type} [FloatOps F]

section Pieces

variable {α : Type}

/-- One window of the transposed slab with a unit axis in front: column window from `o`, read at `(u, f, j)`, is the
    slab at `(o + j, f)`. The unit axis is dropped, the window shifts the column by `o`, the transpose swaps the two
    coordinates. -/
theorem window_apply (X : S72x257.Idx → α) (o : Nat) (h : S257x72.Slices ![0, o] S257x64)
    (u : Fin 1) (f : Fin 257) (j : Fin 64) (ho : o + j.val < 72) :
    shapeCast S1x257x64
        (extractStridedSlice S257x64 ![0, o] (transpose S257x72 [1, 0] X transposes_S72x257_p1_0_S257x72) h)
        shapeCasts_S257x64_S1x257x64 (ix3 u f j)
      = X (ix2 ⟨o + j.val, ho⟩ f) :=
  (shapeCast_ab_1ab_apply _ shapeCasts_S257x64_S1x257x64 u f j).trans
    ((slice2_axis1_apply o _ h f j ⟨o + j.val, ho⟩ rfl).trans
      (transpose_ix2_apply X transposes_S72x257_p1_0_S257x72 f ⟨o + j.val, ho⟩))

/-- A stack along the leading axis of pieces of leading extent 1, read at `(k, f, j)`: piece `k` at `(0, f, j)`.
    The pieces before piece `k` have total extent `k`, so the leading coordinate `k` falls at position `0` of piece
    `k`; the other two coordinates are unchanged. -/
theorem stack_apply (xs : List ((s : Shape) × (s.Idx → α)))
    (h : Shape.Concatenates (xs.map (·.1)) S8x257x64 0)
    (hlen : xs.length = 8) (k : Nat) (hk8 : k < 8) (x : S1x257x64.Idx → α)
    (hxk : xs[k]'(hlen ▸ hk8) = ⟨S1x257x64, x⟩)
    (hpre : (((xs.take k).map (·.1)).map fun s =>
      if h : s.rank = S8x257x64.rank then s.size ((0 : Fin S8x257x64.rank).cast h.symm) else 0).sum = k)
    (f : Fin 257) (j : Fin 64) :
    concatenate S8x257x64 0 xs h (ix3 ⟨k, hk8⟩ f j) = x (ix3 (0 : Fin 1) f j) :=
  concatenate_apply_piece 0 xs h (ix3 ⟨k, hk8⟩ f j) k (hlen ▸ hk8) S1x257x64 x hxk rfl k hpre (ix3 (0 : Fin 1) f j)
    (fun b hb => match b, hb with
      | ⟨0, _⟩, hb => absurd rfl hb
      | ⟨1, _⟩, _ => rfl
      | ⟨2, _⟩, _ => rfl)
    (Nat.add_zero k)

end Pieces

/-- Entry `(s, f, j)` of the stored value is entry `(s + j, f)` of the slab. -/
theorem pay1_apply (v8 : Vec F S72x257 .f32) (s : Fin 8) (f : Fin 257) (j : Fin 64) :
    k0_pay1 (F := F) v8 (ix3 s f j) = v8 (ix2 ⟨s.val + j.val, by omega⟩ f) := by
  unfold k0_pay1
  match s with
  | ⟨0, hs⟩ =>
    exact (stack_apply _ _ rfl 0 hs _ rfl rfl f j).trans (window_apply v8 0 _ 0 f j _)
  | ⟨1, hs⟩ =>
    exact (stack_apply _ _ rfl 1 hs _ rfl rfl f j).trans (window_apply v8 1 _ 0 f j _)
  | ⟨2, hs⟩ =>
    exact (stack_apply _ _ rfl 2 hs _ rfl rfl f j).trans (window_apply v8 2 _ 0 f j _)
  | ⟨3, hs⟩ =>
    exact (stack_apply _ _ rfl 3 hs _ rfl rfl f j).trans (window_apply v8 3 _ 0 f j _)
  | ⟨4, hs⟩ =>
    exact (stack_apply _ _ rfl 4 hs _ rfl rfl f j).trans (window_apply v8 4 _ 0 f j _)
  | ⟨5, hs⟩ =>
    exact (stack_apply _ _ rfl 5 hs _ rfl rfl f j).trans (window_apply v8 5 _ 0 f j _)
  | ⟨6, hs⟩ =>
    exact (stack_apply _ _ rfl 6 hs _ rfl rfl f j).trans (window_apply v8 6 _ 0 f j _)
  | ⟨7, hs⟩ =>
    exact (stack_apply _ _ rfl 7 hs _ rfl rfl f j).trans (window_apply v8 7 _ 0 f j _)

end Cert.KernelIdeal.BlockValue

end
-- ==== Proof.BlockValue.lean ====
/-
  What one grid point leaves in its block of the first result.

  At grid point `i` the body makes six trips. Trip `k` loads rows `48 i + 8 k … 48 i + 8 k + 71` of the first argument
  (a slab of 72 rows), and stores into rows `8 k … 8 k + 7` of the block the eight transposed windows of 64 rows that
  start at the slab's rows `0 … 7`. So row `r` of the block, at `(f, j)`, holds the argument's entry
  `(48 i + r + j, f)`: one function of the block index (`blockFn`), of which every trip's store is a tile. The six stores
  tile the block, so the block ends holding that function.
-/
import proofs.«402857_j23106924053186_3_alg».proof.Proof.Gen.KernelIdeal.Frame
import proofs.«402857_j23106924053186_3_alg».proof.Proof.Payload
import Idealize.ShloMosaic.Lib.Pipeline.Value
import Idealize.ShloMosaic.Lib.ValueIdx

set_option maxRecDepth 16384

noncomputable section

namespace Cert.KernelIdeal.BlockValue

open Idealize.ShloMosaic Idealize.ShloMosaic.TcCoe Idealize.ShloMosaic.ValueIdx Idealize.SL.Sem
open Cert.KernelIdeal Cert.KernelIdeal.Gen

variable {F : FTy → Type} [FloatOps F]

/-- The block of grid point `i` as a function of the first argument `x0`: entry `(r, f, j)` is `x0 (48 i + r + j, f)`.
    The largest row read is `48 · 339 + 47 + 63 = 16382`. -/
def blockFn (i : grid0.Coords) (x0 : Vec F S16384x257 .f32) : Vec F S48x257x64 .f32 :=
  fun y => x0 (ix2 ⟨48 * (i 0).val + (y 0).val + (y 2).val, by
      have hi : (i 0).val < 340 := (i 0).isLt
      have h0 : (y 0).val < 48 := (y 0).isLt
      have h2 : (y 2).val < 64 := (y 2).isLt
      omega⟩ ⟨(y 1).val, (y 1).isLt⟩)

/-- One trip stores ONE tile: rows `8 k … 8 k + 7` of the block, the eight windows of the slab loaded at row
    `48 i + 8 k`. -/
theorem tripL_eq (𝒱 : Variants) (c : Dev nD) (bd : Option 𝒱.V) (i : grid0.Coords)
    (arg1 : Memref sig .tc .vmem S16384x257 .f32) (harg1 : arg1.IsWhole)
    (arg2 : Memref sig .tc .vmem S48x257x64 .f32) (harg2 : arg2.IsWhole)
    (X : BufTy.Contents (Elt F) arg1.view.ty) (k : Fin k0_t1_loop.trips) :
    tripL_k0_t1 (F := F) 𝒱 c bd i arg1 harg1 arg2 harg2 X k
      = [⟨Rect.unit (s := S48x257x64) (k0_off2 k) S8x257x64.size (k0_off2_inb k),
          k0_pay1 (View.readAt (Elt F) arg1.view
            (Rect.unit (s := S16384x257) (k0_off1 i k) S72x257.size (k0_off1_inb i k)).toLoadRect X)⟩] := by
  unfold tripL_k0_t1 trip_k0_t1
  rfl

/-- A property of every trip's tiles holds of all the tiles stored before trip `n`. -/
theorem forall_mem_pb (P : View.Piece (Elt F) S48x257x64 .f32 → Prop) (𝒱 : Variants) (c : Dev nD) (bd : Option 𝒱.V)
    (i : grid0.Coords) (arg1 : Memref sig .tc .vmem S16384x257 .f32) (harg1 : arg1.IsWhole)
    (arg2 : Memref sig .tc .vmem S48x257x64 .f32) (harg2 : arg2.IsWhole) (X : BufTy.Contents (Elt F) arg1.view.ty)
    (hP : ∀ k : Fin k0_t1_loop.trips, ∀ p ∈ tripL_k0_t1 (F := F) 𝒱 c bd i arg1 harg1 arg2 harg2 X k, P p) :
    ∀ n : ℕ, ∀ p ∈ pb_k0_t1 (F := F) 𝒱 c bd i arg1 harg1 arg2 harg2 X n, P p
  | 0, p, hp => by rw [pb_k0_t1.eq_1] at hp; exact absurd hp List.not_mem_nil
  | n + 1, p, hp => by
    rw [pb_k0_t1.eq_2] at hp
    unfold pb_k0_t1Step at hp
    by_cases h : n < k0_t1_loop.trips
    · rw [dif_pos h] at hp
      rcases List.mem_append.mp hp with h1 | h2
      · exact hP ⟨n, h⟩ p h1
      · exact forall_mem_pb P 𝒱 c bd i arg1 harg1 arg2 harg2 X hP n p h2
    · rw [dif_neg h] at hp
      exact forall_mem_pb P 𝒱 c bd i arg1 harg1 arg2 harg2 X hP n p hp

/-- Trip `k`'s tile is the tile of `blockFn` under its rectangle: at `(s, f, j)` of the tile the slab's entry
    `(s + j, f)`, which is the argument's entry `(48 i + 8 k + s + j, f)`; the tile's place in the block is row `8 k + s`. -/
theorem trip_tile_eq (i : grid0.Coords) (arg1 : Memref sig .tc .vmem S16384x257 .f32) (harg1 : arg1.IsWhole)
    (x0 : Vec F S16384x257 .f32) (k : Fin k0_t1_loop.trips) (x : S8x257x64.Idx) :
    k0_pay1 (F := F) (View.readAt (Elt F) arg1.view
        (Rect.unit (s := S16384x257) (k0_off1 i k) S72x257.size (k0_off1_inb i k)).toLoadRect (harg1.unread x0)) x
      = blockFn i x0 ((Rect.unit (s := S48x257x64) (k0_off2 k) S8x257x64.size (k0_off2_inb k)).emb x) := by
  obtain ⟨s, f, j, rfl⟩ : ∃ (s : Fin 8) (f : Fin 257) (j : Fin 64), x = ix3 s f j := ⟨x 0, x 1, x 2, eq_ix3 x⟩
  refine (pay1_apply _ s f j).trans ?_
  rw [View.readAt_eq_ld, harg1.read_unread]
  show x0 _ = x0 _
  congr 1
  funext a
  apply Fin.ext
  have e1 := k0_off1_eq i k
  have e2 := k0_off2_eq k
  match a with
  | ⟨0, _⟩ =>
    show (k0_off1 i k) 0 + 1 * (s.val + j.val)
      = 48 * (i 0).val + ((k0_off2 k) 0 + 1 * s.val) + ((k0_off2 k) 2 + 1 * j.val)
    rw [e1, e2]
    show (48 * (i 0).val + 8 * k.val) + 1 * (s.val + j.val) = 48 * (i 0).val + (8 * k.val + 1 * s.val) + (0 + 1 * j.val)
    omega
  | ⟨1, _⟩ =>
    show (k0_off1 i k) 1 + 1 * f.val = (k0_off2 k) 1 + 1 * f.val
    rw [e1, e2]
    rfl

/-- So the body, run on whole staging buffers with the first argument's array `x0` in the input buffer, leaves
    `blockFn i x0` in the output buffer: its stores are tiles of that function and cover the block. -/
theorem out_eq (c : Dev nD) (i : grid0.Coords) (arg1 : Memref sig .tc .vmem S16384x257 .f32) (harg1 : arg1.IsWhole)
    (arg2 : Memref sig .tc .vmem S48x257x64 .f32) (harg2 : arg2.IsWhole) (x0 : Vec F S16384x257 .f32) :
    out0_A_1 (F := F) c i arg1 harg1 arg2 harg2 x0 = blockFn i x0 := by
  unfold out0_A_1
  rw [View.read_writes_eq_canon _ _ _ (cover0_A_1 c i arg1 harg1 arg2 harg2 x0)]
  funext y
  refine View.canon_apply_of_pieces (blockFn i x0) _ ?_ y (cover0_A_1 c i arg1 harg1 arg2 harg2 x0 y)
  have hrun : (kernelRun0_A (F := F) c i arg1 harg1 arg2 harg2 x0).1
      = pb_k0_t1 (F := F) Variants.none c none i arg1 harg1 arg2 harg2 (harg1.unread x0) k0_t1_loop.trips := by
    unfold kernelRun0_A
    rfl
  rw [hrun]
  refine forall_mem_pb _ Variants.none c none i arg1 harg1 arg2 harg2 (harg1.unread x0) (fun k p hp => ?_) _
  rw [tripL_eq] at hp
  obtain rfl := List.mem_singleton.mp hp
  exact fun x => trip_tile_eq i arg1 harg1 x0 k x

end Cert.KernelIdeal.BlockValue

end
-- ==== Proof.Spec.lean ====
/-
  What the two programs compute, as functions of the argument arrays.

  The first result is the array of sliding windows of the first argument, each window transposed: with 16384 rows of
  257 entries, window `n` (for `n < 16320`) is rows `n … n + 63`, and the result holds at `(n, f, j)` the entry
  `(n + j, f)` of the argument. The second result is rows `64 … 16383` of the second argument. Nothing is computed on
  the entries: both programs only move them.
-/
import Idealize.ShloMosaic.Lib.ValueIdx

namespace Cert.Windows

open Idealize.ShloMosaic Idealize.ShloMosaic.ValueIdx

variable {α : Type}

/-- Row `n + j` of the argument: position `j` of window `n`. The last window starts at row 16319 and ends at row
    16382, inside the 16384 rows. -/
abbrev row (n : Fin 16320) (j : Fin 64) : Fin 16384 := ⟨n.val + j.val, by omega⟩

/-- The sliding windows of `X`, each transposed: entry `(n, f, j)` is `X (n + j, f)`. -/
def windows (X : (⟨2, ![16384, 257]⟩ : Shape).Idx → α) : (⟨3, ![16320, 257, 64]⟩ : Shape).Idx → α :=
  fun y => X (ix2 (row ⟨(y 0).val, (y 0).isLt⟩ ⟨(y 2).val, (y 2).isLt⟩) ⟨(y 1).val, (y 1).isLt⟩)

theorem windows_apply (X : (⟨2, ![16384, 257]⟩ : Shape).Idx → α) (n : Fin 16320) (f : Fin 257) (j : Fin 64) :
    windows X (ix3 n f j) = X (ix2 (row n j) f) := rfl

end Cert.Windows
-- ==== Proof.ArrayValue.lean ====
/-
  The kernel's two results as functions of its arguments.

  Grid point `t` (of 340) writes block `t` of the first result: rows `48 t … 48 t + 47`. The body leaves in that
  block, at `(r, f, j)`, the first argument's entry `(48 t + r + j, f)`, and row `r` of block `t` is row `48 t + r` of
  the result: the block is the restriction of the sliding-window function of the argument. The 340 blocks tile the
  16320 rows (row `n` is in block `n / 48`), so the first result ends holding the sliding windows of the first
  argument. The second result is written by one operation after the region, a slice of the second argument,
  which the region does not touch.
-/
import proofs.«402857_j23106924053186_3_alg».proof.Proof.BlockValue
import proofs.«402857_j23106924053186_3_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockValue

variable {F : FTy → Type} [FloatOps F]
variable (m : (ℓ : Loc nD τ sig) → Buf (Elt F) ℓ) (ρ : Dev nD → PrngReg)

/-- The grid and the two index maps, decided over the 340 points: point `t` has coordinate `t`; the output's block
    index is `(t, 0, 0)`; the input's block is the whole array, at `(0, 0)`. -/
theorem grid_facts : ∀ t : Fin cfg0.N, (grid0.coords t 0).val = t.val
    ∧ win0_1.index t (0 : Fin 3) = t.val ∧ win0_1.index t (1 : Fin 3) = 0 ∧ win0_1.index t (2 : Fin 3) = 0
    ∧ win0_0.index t (0 : Fin 2) = 0 ∧ win0_0.index t (1 : Fin 2) = 0 :=
  (by decide +kernel : ∀ t : Fin grid0.N, _)

/-- The first result: the sliding windows of the first argument. -/
abbrev result (c : Dev nD) : Buf (Elt F) ((c : Thread nD τ).loc main_v0) :=
  Cert.Windows.windows (m ((c : Thread nD τ).loc main_arg0))

/-- The input window's block is the whole first argument at every point. -/
theorem iblk_eq (c : Dev nD) (t : Fin cfg0.N) :
    (iblk m c 0 t : Vec F S16384x257 .f32) = m ((c : Thread nD τ).loc main_arg0) := by
  obtain ⟨-, -, -, -, e4, e5⟩ := grid_facts t
  funext y
  unfold iblk
  rw [View.read_apply]
  show V m c main_arg0 _ = m (c.tc.loc main_arg0) y
  unfold V
  congr 1
  funext a
  apply Fin.ext
  match a with
  | ⟨0, _⟩ => show win0_0.index t 0 * 16384 + 1 * (y 0).val = (y 0).val; rw [e4]; omega
  | ⟨1, _⟩ => show win0_0.index t 1 * 257 + 1 * (y 1).val = (y 1).val; rw [e5]; omega

/-- What point `t` writes back is block `t` of the sliding windows: entry `(r, f, j)` of the block is the argument's
    entry `(48 t + r + j, f)`, and the block's row `r` is the result's row `48 t + r`. -/
theorem flushed_eq (c : Dev nD) (t : Fin cfg0.N) :
    (dats m 0 c).flushed 1 t = ((cfg0.win 1).blk t).view.read (Elt F) (result m c) := by
  obtain ⟨e0, e1, e2, e3, -, -⟩ := grid_facts t
  show (cfg0.win 1).cut (grid0.coords t) ((dats m 0 c).after 1 t) = _
  rw [after0_1]
  unfold outsAt0
  rw [out_eq, iblk_eq]
  funext y
  rw [View.read_apply]
  show blockFn (grid0.coords t) (m ((c : Thread nD τ).loc main_arg0)) y
    = Cert.Windows.windows (m ((c : Thread nD τ).loc main_arg0)) (((cfg0.win 1).blk t).view.emb y)
  unfold blockFn Cert.Windows.windows
  congr 1
  funext a
  apply Fin.ext
  match a with
  | ⟨0, _⟩ =>
    show 48 * (grid0.coords t 0).val + (y 0).val + (y 2).val
      = (win0_1.index t 0 * 48 + 1 * (y 0).val) + (win0_1.index t 2 * 64 + 1 * (y 2).val)
    rw [e0, e1, e3]; omega
  | ⟨1, _⟩ =>
    show (y 1).val = win0_1.index t 1 * 257 + 1 * (y 1).val
    rw [e2]; omega

/-- Every index of the first result is in some point's block: row `n` is in block `n / 48`. -/
theorem cover (c : Dev nD) (i : ((cfg0.win 1).arr.view.loc (c.tc : Thread nD τ)).2.ty.Idx) :
    ∃ t : Fin cfg0.N, (cfg0.win 1).flush t = true ∧ i ∈ ((cfg0.win 1).blk t).view.set := by
  have hN : cfg0.N = 340 := N_0
  have h0 : (i 0).val < 16320 := (i 0).isLt
  have h1 : (i 1).val < 257 := (i 1).isLt
  have h2 : (i 2).val < 64 := (i 2).isLt
  have ht : (i 0).val / 48 < cfg0.N := by rw [hN]; omega
  obtain ⟨-, e1, e2, e3, -, -⟩ := grid_facts ⟨(i 0).val / 48, ht⟩
  refine ⟨⟨(i 0).val / 48, ht⟩, flush0_1 _, ?_⟩
  show i ∈ ((View.whole main_v0).slice (win0_1.rect ⟨(i 0).val / 48, ht⟩)).set
  rw [View.set_slice_whole, Rect.mem_set_unit]
  intro a
  match a with
  | ⟨0, _⟩ =>
    show win0_1.index ⟨(i 0).val / 48, ht⟩ 0 * 48 ≤ (i 0).val
      ∧ (i 0).val < win0_1.index ⟨(i 0).val / 48, ht⟩ 0 * 48 + 48
    rw [e1]; dsimp only; omega
  | ⟨1, _⟩ =>
    show win0_1.index ⟨(i 0).val / 48, ht⟩ 1 * 257 ≤ (i 1).val
      ∧ (i 1).val < win0_1.index ⟨(i 0).val / 48, ht⟩ 1 * 257 + 257
    rw [e2]; omega
  | ⟨2, _⟩ =>
    show win0_1.index ⟨(i 0).val / 48, ht⟩ 2 * 64 ≤ (i 2).val
      ∧ (i 2).val < win0_1.index ⟨(i 0).val / 48, ht⟩ 2 * 64 + 64
    rw [e3]; omega

/-- So the first result ends holding the sliding windows of the first argument. -/
theorem final_windows (c : Dev nD) : (dats m 0 c).arrAt 1 cfg0.N = result m c :=
  (dats m 0 c).arrAt_eq_of_cover 1 (result m c) (fun t _ => flushed_eq m c t) (cover c)

/-- The operation after the region writes the second result: rows 64 … 16383 of the second argument, which no
    window of the region is. -/
theorem tail_rows (c : Dev nD) :
    Pipeline.afterTail₀ cfgs (dats m) 0 (V0 m) [hostOps1] c main_v1
      = extractStridedSlice S16320x257 ![64, 0] (m ((c : Thread nD τ).loc main_arg1)) slices_S16384x257_S16320x257_64_0 := by
  unfold Pipeline.afterTail₀
  show StableHlo.after hostOps1 _ (Proc.devRef .tc main_v1) = _
  after_results
  rw [Pipeline.withArrays_of_ne _ c (V0 m c) _ main_arg1 (by exact (by decide : ∀ w, Pipeline.arrRef spec0 w ≠ main_arg1))]
  rfl

/-- The run, read: both results as functions of the arguments, the arguments unchanged. -/
theorem run : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_v1)
          = extractStridedSlice S16320x257 ![64, 0] (m ((c.tc : Thread nD τ).loc main_arg1)) slices_S16384x257_S16320x257_64_0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 1).trans (final_windows m c),
      ((h c).2 main_v1 (Pipeline.mem_restRefs_of main_v1 (by decide) (by decide))).trans (tail_rows m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.ArrayValue

end
-- ==== Proof.RefGather.lean ====
/-
  The reference's gathered windows, read at an index: the last stage of the reference at (n, f, j) is its
  argument at (n + j, f).
-/
import proofs.«402857_j23106924053186_3_alg».proof.Proof.Gen.ReferenceIdeal.Read
import Idealize.ShloMosaic.Lib.ValueIdx
import Idealize.ShloMosaic.Lib.StableHlo.Predicate

noncomputable section

namespace Cert.ReferenceIdeal.RefValue

open Idealize.ShloMosaic Idealize.ShloMosaic.ValueIdx Cert.ReferenceIdeal Cert.ReferenceIdeal.Gen Cert.ReferenceIdeal.Read

variable {F : FTy → Type} [FloatOps F]

/-- The gather's dimension numbers: rows of a 16384 x 257 operand, one start index per (n, j). -/
local notation "gd" => gather_S16384x257_S16320x64x1_S16320x64x257_2_0_n_n_0_2_1257

/-- No operand axis is a batching axis. -/
theorem gd_batch (y : S16320x64x257.Idx) (a : Fin 2) : GatherDims.batchCoord gd y a = 0 :=
  GatherDims.batchCoord_eq_zero gd y a (by show a ∉ []; exact List.not_mem_nil)

/-- The row axis is collapsed: it carries no offset. -/
theorem gd_off_row (y : S16320x64x257.Idx) : GatherDims.offCoord gd y (0 : Fin 2) = 0 := by
  apply GatherDims.offCoord_eq_zero
  intro h
  have := ((GatherDims.mem_sKept gd (0 : Fin 2)).mp h).1
  exact this (by show (0 : Fin 2) ∈ [0]; exact List.mem_singleton.mpr rfl)

/-- The column axis is the one kept axis: its offset is the result's last coordinate. -/
theorem gd_off_col (y : S16320x64x257.Idx) : GatherDims.offCoord gd y (1 : Fin 2) = (y 2).val := by
  unfold GatherDims.offCoord
  have hk : (1 : Fin 2) ∈ GatherDims.sKept gd := by
    rw [GatherDims.mem_sKept]; constructor
    · show (1 : Fin 2) ∉ [0]; decide
    · show (1 : Fin 2) ∉ []; exact List.not_mem_nil
  rw [dif_pos hk]
  rfl

/-- The column axis is not in the start index map: its slice starts at 0. -/
theorem gd_start_col {w : Nat} (y : S16320x64x257.Idx) (idx : IVec S16320x64x1 w) :
    GatherDims.start gd y idx (1 : Fin 2) = 0 := by
  unfold GatherDims.start
  rw [dif_neg (by show (1 : Fin 2) ∉ [0]; decide)]

/-- The row axis' slice starts at the start index read at (n, j, 0), signed and clamped into [0, 16383]. -/
theorem gd_start_row {w : Nat} (y : S16320x64x257.Idx) (idx : IVec S16320x64x1 w) :
    GatherDims.start gd y idx (0 : Fin 2) = min (idx (ix3 (y 0) (y 1) ⟨0, Nat.one_pos⟩)).toInt.toNat 16383 := by
  unfold GatherDims.start
  have hm : (0 : Fin 2) ∈ GatherDims.startIndexMap gd := by show (0 : Fin 2) ∈ [0]; exact List.mem_singleton.mpr rfl
  rw [dif_pos hm]
  -- the start index sits at (n, j, 0): the result's two batch coordinates, then component 0 of the index vector
  have hpos : GatherDims.siIdx gd y ⟨List.idxOf (0 : Fin 2) (GatherDims.startIndexMap gd), List.idxOf_lt_length_iff.2 hm⟩
      = ix3 (y 0) (y 1) ⟨0, Nat.one_pos⟩ := by
    funext b
    apply Fin.ext
    match b with
    | ⟨0, _⟩ => rfl
    | ⟨1, _⟩ => rfl
    | ⟨2, _⟩ => rfl
  rw [hpos]
  rfl

/-- The gather of rows read at (n, j, f): row `idx[n, j, 0]` (signed, clamped into [0, 16383]) of the operand, column f. -/
theorem gather_rows_apply {α : Type} {w : Nat} (x : S16384x257.Idx → α) (idx : IVec S16320x64x1 w)
    (n : Fin 16320) (j : Fin 64) (f : Fin 257) :
    Host.gather gd x idx (ix3 n j f)
      = x (ix2 ⟨min (idx (ix3 n j ⟨0, Nat.one_pos⟩)).toInt.toNat 16383, by omega⟩ f) := by
  unfold Host.gather
  congr 1
  funext a
  refine Fin.ext ?_
  match a with
  | ⟨0, _⟩ =>
    show GatherDims.start gd (ix3 n j f) idx (0 : Fin 2) + GatherDims.batchCoord gd (ix3 n j f) (0 : Fin 2)
      + GatherDims.offCoord gd (ix3 n j f) (0 : Fin 2) = min (idx (ix3 n j ⟨0, Nat.one_pos⟩)).toInt.toNat 16383
    rw [gd_batch, gd_off_row, gd_start_row]
    rfl
  | ⟨1, _⟩ =>
    show GatherDims.start gd (ix3 n j f) idx (1 : Fin 2) + GatherDims.batchCoord gd (ix3 n j f) (1 : Fin 2)
      + GatherDims.offCoord gd (ix3 n j f) (1 : Fin 2) = f.val
    rw [gd_batch, gd_off_col, gd_start_col]
    show 0 + 0 + f.val = f.val
    omega

/-! ### The index word -/

/-- Row iota plus column iota at (n, j): the word of n + j. -/
theorem sum_word (i : S16320x64.Idx) :
    val_main_v6 (F := F) i = BitVec.ofNat 32 ((i 0).val + (i 1).val) := by
  rw [val_main_v6_apply, val_main_v4_apply, val_main_v1_apply, val_main_v0_apply,
    val_main_v5_apply, val_main_v3_apply, val_main_v2_apply]
  show BitVec.ofNat 32 (i 0).val + BitVec.ofNat 32 (i 1).val = BitVec.ofNat 32 ((i 0).val + (i 1).val)
  exact (BitVec.ofNat_add (i 0).val (i 1).val).symm

/-- n + j ≤ 16382 is not negative as a signed 32-bit integer, so the select keeps n + j: the wrapped index
    n + j + 16384 is never taken. -/
theorem index_word (i : S16320x64.Idx) :
    val_main_v11 (F := F) i = BitVec.ofNat 32 ((i 0).val + (i 1).val) := by
  have h0 : (i 0).val < 16320 := (i 0).isLt
  have h1 : (i 1).val < 64 := (i 1).isLt
  rw [val_main_v11_apply, val_main_v8_apply, val_main_v7_apply, val_main_c_apply, sum_word]
  have hnot : ¬ IntOp.cmpi .slt (BitVec.ofNat 32 ((i 0).val + (i 1).val)) 0#32 = 1#1 := by
    rw [StableHlo.Predicate.slt_iff_toNat (by rw [BitVec.toNat_ofNat]; omega) (by decide)]
    exact Nat.not_lt_zero _
  rw [eq_zero_of_ne_one hnot, select_zero]

/-! ### The windows -/

/-- The reference's first result at (n, f, j) is its first argument at (n + j, f): the index word n + j is read
    back signed as n + j, the clamp into [0, 16383] leaves it, and the transpose swaps the last two axes. -/
theorem windows_apply (x0 : (⟨S16384x257, .f32⟩ : BufTy).Contents (Elt F)) (n : Fin 16320) (f : Fin 257) (j : Fin 64) :
    val_main_v14 (F := F) x0 (ix3 n f j) = x0 (ix2 ⟨n.val + j.val, by omega⟩ f) := by
  have hn : n.val < 16320 := n.isLt
  have hj : j.val < 64 := j.isLt
  have hix : idx_main_v14 (ix3 n f j) = ix3 n j f := by
    funext a
    match a with
    | ⟨0, _⟩ => rfl
    | ⟨1, _⟩ => rfl
    | ⟨2, _⟩ => rfl
  rw [val_main_v14_apply, hix]
  show Host.gather gd x0 (val_main_v12 (F := F)) (ix3 n j f) = _
  rw [gather_rows_apply]
  -- the start index read at (n, j, 0) is the word of n + j
  have hword : val_main_v12 (F := F) (ix3 n j ⟨0, Nat.one_pos⟩) = BitVec.ofNat 32 (n.val + j.val) := by
    rw [val_main_v12_apply, index_word]
  -- read back signed it is n + j, which the clamp into [0, 16383] leaves alone
  have hrow : min (val_main_v12 (F := F) (ix3 n j ⟨0, Nat.one_pos⟩)).toInt.toNat 16383 = n.val + j.val := by
    rw [hword, StableHlo.Predicate.toInt_ofNat_small _ (by omega)]
    omega
  congr 1
  funext a
  apply Fin.ext
  match a with
  | ⟨0, _⟩ => exact hrow
  | ⟨1, _⟩ => rfl

end Cert.ReferenceIdeal.RefValue

end
-- ==== Proof.RefValue.lean ====
/-
  The reference's first result is the array of sliding windows of its first argument.

  The reference forms the index array `n + j`, gathers row `n + j` of the argument into position `(n, j)`, and swaps
  the last two axes: entry `(n, f, j)` of its result is the argument's entry `(n + j, f)`.
-/
import proofs.«402857_j23106924053186_3_alg».proof.Proof.RefGather
import proofs.«402857_j23106924053186_3_alg».proof.Proof.Spec
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read

variable {F : FTy → Type} [FloatOps F]

/-- The reference's last stage for the first result, as one function of the argument. -/
theorem windows_eq (x0 : (⟨S16384x257, .f32⟩ : BufTy).Contents (Elt F)) :
    val_main_v14 (F := F) x0 = Cert.Windows.windows x0 := by
  funext y
  obtain ⟨n, f, j, rfl⟩ : ∃ (n : Fin 16320) (f : Fin 257) (j : Fin 64), y = ix3 n f j := ⟨y 0, y 1, y 2, eq_ix3 y⟩
  exact (windows_apply x0 n f j).trans (Cert.Windows.windows_apply x0 n f j).symm

end Cert.ReferenceIdeal.RefValue

end
-- ==== Proof.lean ====
/-
  The kernel and the reference compute the same two arrays.

  Both programs only move entries. The first result is the array of sliding windows of the first argument, each
  transposed — entry `(n, f, j)` is the argument's entry `(n + j, f)`, for 16320 windows of 64 rows over 16384 rows —
  and the second is rows 64 … 16383 of the second argument.
  The kernel fills the first result block by block (48 windows a block, eight windows a trip of its inner loop, each
  trip transposing one slab of 72 rows), and takes the second by one slice after the region: `ArrayValue.run`.
  The reference gathers row `n + j` at `(n, j)` and swaps the last two axes, and takes the same slice:
  its run read back, `RefValue.windows_eq`.
  No entry is computed on, so the equality holds for all extended-real entries and the finiteness of the inputs is
  not used. The idealization rewrote nothing, so there is nothing to preserve.
-/
import proofs.«402857_j23106924053186_3_alg».proof.Defs
import proofs.«402857_j23106924053186_3_alg».proof.Proof.Gen.Kernel
import proofs.«402857_j23106924053186_3_alg».proof.Proof.Gen.Kernel.Skeleton
import proofs.«402857_j23106924053186_3_alg».proof.Proof.Gen.Kernel.Loops
import proofs.«402857_j23106924053186_3_alg».proof.Proof.Gen.Kernel.Launch
import proofs.«402857_j23106924053186_3_alg».proof.Proof.Gen.Kernel.Points
import proofs.«402857_j23106924053186_3_alg».proof.Proof.Gen.Kernel.Frame
import proofs.«402857_j23106924053186_3_alg».proof.Proof.Gen.KernelIdeal
import proofs.«402857_j23106924053186_3_alg».proof.Proof.Gen.KernelIdeal.Skeleton
import proofs.«402857_j23106924053186_3_alg».proof.Proof.Gen.KernelIdeal.Loops
import proofs.«402857_j23106924053186_3_alg».proof.Proof.Gen.KernelIdeal.Launch
import proofs.«402857_j23106924053186_3_alg».proof.Proof.Gen.KernelIdeal.Points
import proofs.«402857_j23106924053186_3_alg».proof.Proof.Gen.KernelIdeal.Frame
import proofs.«402857_j23106924053186_3_alg».proof.Proof.Gen.ReferenceIdeal
import proofs.«402857_j23106924053186_3_alg».proof.Proof.Gen.ReferenceIdeal.Run
import proofs.«402857_j23106924053186_3_alg».proof.Proof.Gen.ReferenceIdeal.Read
import proofs.«402857_j23106924053186_3_alg».proof.Proof.Gen.Pre_finite_inputs
import proofs.«402857_j23106924053186_3_alg».proof.Proof.ArrayValue
import proofs.«402857_j23106924053186_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote no operation. -/
theorem preserves : Cert.preserves_Kernel_KernelIdeal := trivial

/-- From arguments that agree, both programs end with the sliding windows of the first argument and rows
    64 … 16383 of the second. -/
theorem algebraic : Cert.algebraic_KernelIdeal_ReferenceIdeal := by
  intro m ρ m' ρ' _ hagree
  refine ⟨fun c => Cert.KernelIdeal.ArrayValue.result m c,
    fun c => extractStridedSlice Cert.KernelIdeal.S16320x257 ![64, 0]
      (m ((c.tc : Thread Cert.KernelIdeal.nD Cert.KernelIdeal.τ).loc Cert.KernelIdeal.main_arg1))
      Cert.KernelIdeal.Gen.slices_S16384x257_S16320x257_64_0,
    Cert.KernelIdeal.ArrayValue.run (F := Ideal) m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v14_eq, Cert.ReferenceIdeal.RefValue.windows_eq, (hagree c).1]
  · rw [(hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
